-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S512x512 : Shape := ⟨2, ![512, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x4096x512 .f32) (main_arg1 : FVec F S512x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S16x4096x512 : Shape := ⟨3, ![16, 4096, 512]⟩
abbrev S512x512 : Shape := ⟨2, ![512, 512]⟩
abbrev S_ : Shape := ⟨0, ![]⟩
abbrev S65536x512 : Shape := ⟨2, ![65536, 512]⟩
abbrev S2048x512 : Shape := ⟨2, ![2048, 512]⟩

abbrev nBuf : Space → Nat
  | .hbm => 22
  | .vmem => 5
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S_, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .i1⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .bf16⟩
  | .hbm, ⟨19, _⟩ => ⟨S65536x512, .f32⟩
  | .hbm, ⟨20, _⟩ => ⟨S65536x512, .f32⟩
  | .hbm, ⟨21, _⟩ => ⟨S16x4096x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S2048x512, .f32⟩
  | .local _ .vmem, ⟨4, _⟩ => ⟨S2048x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  shapeCasts_S16x4096x512_S65536x512 : S16x4096x512.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S65536x512_S16x4096x512 : S65536x512.ShapeCasts S16x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S65536x512.size a
  hwx0_2 : ∀ i : grid0.Coords, EltTy.bits .f32 = 32 ∨ (Rect.block (s := S65536x512) S2048x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v9) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S512x512 : Shape := ⟨2, ![512, 512]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S512x512, .f32⟩
  | .hbm, ⟨2, _⟩ => ⟨S_, .f32⟩
  | .hbm, ⟨3, _⟩ => ⟨S512x512, .f32⟩
  | .hbm, ⟨4, _⟩ => ⟨S512x512, .i1⟩
  | .hbm, ⟨5, _⟩ => ⟨S_, .f32⟩
  | .hbm, ⟨6, _⟩ => ⟨S512x512, .f32⟩
  | .hbm, ⟨7, _⟩ => ⟨S512x512, .i1⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  dot_S16x4096x512_S512x512_S16x4096x512_2_1_01_0_n_n_wf : DotDims.WF S16x4096x512 S512x512 S16x4096x512 [2] [1] [0, 1] [0] [] []

variable [Facts₀]

def dot_S16x4096x512_S512x512_S16x4096x512_2_1_01_0_n_n : DotDims S16x4096x512 S512x512 S16x4096x512 where
  lhsContracting := [2]
  rhsContracting := [1]
  lhsNonContracting := [0, 1]
  rhsNonContracting := [0]
  lhsBatch := []
  rhsBatch := []
  wf := dot_S16x4096x512_S512x512_S16x4096x512_2_1_01_0_n_n_wf

class Facts : Prop extends Facts₀ where

variable [Facts]
-- ==== Proof.TernarySpec.lean ====
/-
  The mathematics both programs compute, stated once over literal shapes and over no program.

  The weight w : [512, 512] is thresholded entrywise to q(w) ∈ {1, -1, 0}
  (1 where w > 0.3, else -1 where w < -0.3, else 0), and the result is the linear map
      out[b, s, o] = Σ_k x[b, s, k] · q(w)[o, k].
  The reference applies the map to w + (q(w) - w) in place of q(w); the two agree wherever w is a real
  number, because a + (y - a) = y for every real a and every extended real y.
-/
import Idealize.ShloMosaic.PureOps.Ideal
import Idealize.ShloMosaic.Lib.ValueIdx

noncomputable section

namespace Cert.Ternary

open Idealize.ShloMosaic Idealize.ShloMosaic.ValueIdx

abbrev SX : Shape := ⟨3, ![16, 4096, 512]⟩
abbrev SW : Shape := ⟨2, ![512, 512]⟩
abbrev SS : Shape := ⟨0, ![]⟩

variable {F : FTy → Type} [FloatOps F]

/-- The thresholded weight q(w), as the tree of operations both programs print for it: the same five
    literals on both sides, so none of them is ever evaluated. -/
def tern (hb : SS.BroadcastsInDim SW (![] : Fin 0 → Fin SW.rank)) (w : FVec F SW .f32) : FVec F SW .f32 :=
  select (cmpf .ogt w (broadcastInDim SW ![] hb (constant SS .f32 0x3E99999A#32)))
    (broadcastInDim SW ![] hb (constant SS .f32 0x3F800000#32))
    (select (cmpf .olt w (broadcastInDim SW ![] hb (constant SS .f32 0xBE99999A#32)))
      (broadcastInDim SW ![] hb (constant SS .f32 0xBF800000#32))
      (broadcastInDim SW ![] hb (constant SS .f32 0x00000000#32)))

/-- out[b, s, o] = Σ_k x[b, s, k] · q[o, k]: rows of x against rows of q. -/
def linear (x : FVec Ideal SX .f32) (q : FVec Ideal SW .f32) : FVec Ideal SX .f32 :=
  fun i => ∑ k : Fin 512, x (ix3 (i 0) (i 1) k) * q (ix2 (i 2) k)

/-- Adding a real number back after subtracting it returns any extended real, the infinities included. -/
theorem add_sub_cancel_coe (a : ℝ) (y : EReal) : (a : EReal) + (y - a) = y := by
  induction y using EReal.rec with
  | bot => simp
  | top => simp
  | coe r => rw [← EReal.coe_sub, ← EReal.coe_add]; congr 1; ring

/-- The straight-through form w + (q - w) is q at every entry where w is real. -/
theorem straight_through (w q : FVec Ideal SW .f32) (hw : ∀ j, ∃ a : ℝ, w j = (a : EReal)) :
    addf w (subf q w) = q := by
  funext j
  obtain ⟨a, ha⟩ := hw j
  show w j + (q j - w j) = q j
  rw [ha]
  exact add_sub_cancel_coe a (q j)

end Cert.Ternary

end
-- ==== Proof.RefTerm.lean ====
/-
  The reference's result, read index by index: its dot_general contracts x's last axis with the last axis
  of w + (q(w) - w), which is q(w) when w is real, so the result is the linear map of the specification.
-/
import proofs.«119432_j42425686950159_1_alg».proof.Proof.Gen.ReferenceIdeal.Read
import proofs.«119432_j42425686950159_1_alg».proof.Proof.TernarySpec

noncomputable section

namespace Cert.Ternary.Ref

open Idealize.ShloMosaic Idealize.ShloMosaic.ValueIdx
open Cert.ReferenceIdeal Cert.ReferenceIdeal.Gen Cert.ReferenceIdeal.Read

variable {F : FTy → Type} [FloatOps F]

/-- The reference's thresholded weight is the specification's tree of operations, literal for literal. -/
theorem thresholded_eq (x1 : FVec F S512x512 .f32) : val_main_v6 (F := F) x1 = tern bcast_S_S512x512 x1 := rfl

/-- The right operand of the reference's contraction, w + (q(w) - w), is q(w) where w is real. -/
theorem operand_eq (x1 : FVec Ideal S512x512 .f32) (hw : ∀ j, ∃ a : ℝ, x1 j = (a : EReal)) :
    val_main_v8 (F := Ideal) x1 = tern bcast_S_S512x512 x1 := by
  unfold val_main_v8 val_main_v7
  rw [thresholded_eq]
  exact straight_through x1 _ hw

/-- The reference's result is the linear map: entry (b, s, o) sums x[b, s, k] · q(w)[o, k] over k. -/
theorem reference_eq (x0 : FVec Ideal S16x4096x512 .f32) (x1 : FVec Ideal S512x512 .f32)
    (hw : ∀ j, ∃ a : ℝ, x1 j = (a : EReal)) :
    val_main_v9 (F := Ideal) x0 x1 = linear x0 (tern bcast_S_S512x512 x1) := by
  funext i
  rw [val_main_v9_apply, operand_eq x1 hw]
  unfold linear
  refine Finset.sum_congr rfl fun k _ => ?_
  have el : lidx_main_v9 i k = ix3 (i 0) (i 1) k :=
    funext fun a => Fin.ext (by match a with | ⟨0, _⟩ => rfl | ⟨1, _⟩ => rfl | ⟨2, _⟩ => rfl)
  have er : ridx_main_v9 i k = ix2 (i 2) k :=
    funext fun a => Fin.ext (by match a with | ⟨0, _⟩ => rfl | ⟨1, _⟩ => rfl)
  rw [el, er]
  rfl

end Cert.Ternary.Ref

end
-- ==== Proof.HostSide.lean ====
/-
  The host operations around the kernel region, read as values.

  Before the region the weight is thresholded, transposed and narrowed (the kernel's right operand wT, so
  wT[k, n] = q(w)[n, k]), and x is flattened from [16, 4096, 512] to [65536, 512] in row-major order
  (row b·4096 + s of the flat array is row (b, s) of x). After the region the [65536, 512] result is
  unflattened the same way.
-/
import proofs.«119432_j42425686950159_1_alg».proof.Proof.Gen.KernelIdeal.Frame
import proofs.«119432_j42425686950159_1_alg».proof.Proof.TernarySpec
import Idealize.ShloMosaic.Lib.StableHlo.Run
import Idealize.ShloMosaic.Lib.Pipeline.Value
import Idealize.ShloMosaic.Lib.ValueIdx

noncomputable section

namespace Cert.Ternary.Host

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The region's right operand is the thresholded weight, transposed and narrowed. -/
theorem weightT_eq (c : Dev nD) :
    (V m c main_v8 : S512x512.Idx → Elt F .bf16)
      = truncf .bf16 (transpose S512x512 [1, 0] (id (tern bcast_S_S512x512 (m ((c : Thread nD τ).loc main_arg1)))) transposes_S512x512_S512x512_1_0) bitsLt_bf16_f32 := by
  dsimp only [V, V0]
  simp only [hostOps0, hostOps0_1, hostOps0_2, hostOps0_3, hostOps0_4, List.flatten_cons, List.flatten_nil, List.append_nil, List.cons_append, List.nil_append]
  after_results
  rfl

/-- The region's left operand is x flattened. -/
theorem rows_eq (c : Dev nD) :
    (V m c main_v9 : S65536x512.Idx → Elt F .f32)
      = shapeCast S65536x512 (m ((c : Thread nD τ).loc main_arg0)) shapeCasts_S16x4096x512_S65536x512 := by
  dsimp only [V, V0]
  simp only [hostOps0, hostOps0_1, hostOps0_2, hostOps0_3, hostOps0_4, List.flatten_cons, List.flatten_nil, List.append_nil, List.cons_append, List.nil_append]
  after_results
  rfl

end Cert.Ternary.Host

end
-- ==== Proof.TileProduct.lean ====
/-
  What the kernel body stores at one grid point: a [2048, 512] tile of x times the whole [512, 512]
  transposed weight, into a zero accumulator. The narrowing of both operands changes nothing over the
  extended reals, so entry (p, n) of the stored tile is Σ_k x_tile[p, k] · wT[k, n].
-/
import proofs.«119432_j42425686950159_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Ternary.Tile

open Idealize.ShloMosaic Idealize.ShloMosaic.ValueIdx
open Cert.KernelIdeal Cert.KernelIdeal.Gen

/-- Row coordinate of the left operand: the output's row. -/
theorem lhs_row (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- Column coordinate of the left operand: the contracted index. -/
theorem lhs_col (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- Row coordinate of the right operand: the contracted index. -/
theorem rhs_row (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- Column coordinate of the right operand: the output's column. -/
theorem rhs_col (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The stored tile at (p, n): the sum over k of x_tile[p, k] · wT[k, n]. -/
theorem tile_apply (v0 : Vec Ideal S2048x512 .f32) (v3 : Vec Ideal S512x512 .bf16) (p : Fin 2048) (n : Fin 512) :
    k0_pay1 (F := Ideal) v0 v3 (ix2 p n) = ∑ k : Fin 512, v0 (ix2 p k) * v3 (ix2 k n) := by
  unfold k0_pay1
  rw [shapeCast_self, shapeCast_self]
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p n) ((contrEquiv1 dot_S2048x512_S512x512_S2048x512_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x512_S2048x512_1_0_0_1_n_n.rhsIdx (ix2 p n) ((contrEquiv1 dot_S2048x512_S512x512_S2048x512_1_0_0_1_n_n 512 rfl rfl).symm k) = ix2 k n := funext fun a => Fin.ext (by
    match a with
    | ⟨0, _⟩ => exact (rhs_row _ _).trans hk
    | ⟨1, _⟩ => exact rhs_col _ _)
  rw [el, er]
  rfl

end Cert.Ternary.Tile

end
-- ==== Proof.FlatProduct.lean ====
/-
  From tiles to the whole flat result. Grid point t handles rows 2048·t … 2048·t + 2047: it reads that
  tile of the flattened x and the whole transposed weight, and writes the same rows of the output. The 32
  tiles partition the 65536 rows, so after the run the output array is the full product
      out2d[r, n] = Σ_k X[r, k] · WT[k, n]
  of the two arrays the region finds.
-/
import proofs.«119432_j42425686950159_1_alg».proof.Proof.Gen.KernelIdeal.Frame
import proofs.«119432_j42425686950159_1_alg».proof.Proof.TileProduct
import Idealize.ShloMosaic.Lib.Pipeline.Value
import Idealize.ShloMosaic.Lib.ValueIdx

set_option maxRecDepth 16384

noncomputable section

namespace Cert.Ternary.Flat

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-- The two arrays the region finds, at their literal types: the flattened x and the transposed weight. -/
abbrev rows (c : Dev nD) : S65536x512.Idx → EReal := V m c main_v9
abbrev cols (c : Dev nD) : S512x512.Idx → EReal := V m c main_v8

theorem zero_offsets : (![0, 0] : Fin 2 → Nat) = fun _ => 0 := funext fun a => by fin_cases a <;> rfl

/-- The flat product of a [65536, 512] array of rows with a [512, 512] array of columns. -/
def product (X : S65536x512.Idx → EReal) (W : S512x512.Idx → EReal) : S65536x512.Idx → EReal :=
  fun i => ∑ k : Fin 512, X (ix2 (i 0) k) * W (ix2 k (i 1))

/-- The stored tile at any index of the tile. -/
theorem tile_at (v0 : Vec Ideal S2048x512 .f32) (v3 : Vec Ideal S512x512 .bf16) (j : S2048x512.Idx) :
    k0_pay1 (F := Ideal) v0 v3 j = ∑ k : Fin 512, v0 (ix2 (j 0) k) * v3 (ix2 k (j 1)) := by
  obtain ⟨p, n, rfl⟩ : ∃ (p : Fin 2048) (n : Fin 512), j = ix2 p n := ⟨j 0, j 1, eq_ix2 j⟩
  exact Tile.tile_apply v0 v3 p n

/-- The block indices, decided over the 32 points: the row tile of x and of the output is tile t, every
    other block index is 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row tile is some point's. -/
theorem tile_onto : ∀ q0 : Fin 32, ∃ t : Fin cfg0.N, win0_2.index t = ![q0.val, 0] :=
  (by decide +kernel : ∀ q0 : Fin 32, ∃ t : Fin grid0.N, win0_2.index t = ![q0.val, 0])

/-- What point t writes back is tile t of the flat product of the arrays the region finds. -/
theorem flushed_eq (c : Dev nD) (t : Fin cfg0.N) :
    (dats m 0 c).flushed 2 t = ((cfg0.win 2).blk t).view.read (Elt Ideal) (product (rows m c) (cols m c)) := by
  show (cfg0.win 2).cut (grid0.coords t) ((dats m 0 c).after 2 t) = _
  rw [after0_2]
  unfold out0_2
  rw [View.canon_unit_zero zero_offsets]
  simp only [View.ld_unit_zero (S := S2048x512) zero_offsets, View.ld_unit_zero (S := S512x512) zero_offsets]
  obtain ⟨e0, e1, e2, e3, e4, e5⟩ := block_indices t
  funext j
  refine (tile_at (iblk m c 0 t) (iblk m c 1 t) j).trans ?_
  show _ = ∑ k : Fin 512, rows m c (ix2 ((((cfg0.win 2).blk t).view.emb j) 0) k) * cols m c (ix2 k ((((cfg0.win 2).blk t).view.emb j) 1))
  refine Finset.sum_congr rfl fun k _ => ?_
  show rows m c (((cfg0.win 0).blk t).view.emb (ix2 (j 0) k)) * cols m c (((cfg0.win 1).blk t).view.emb (ix2 k (j 1))) = _
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega
  rw [h0, h1]
  rfl

/-- An index of the output is in point t's tile iff each coordinate is in the tile's range. -/
theorem mem_tile (t : Fin cfg0.N) (i : S65536x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v10).slice (win0_2.rect t)).set ↔ _
  rw [View.set_slice_whole, Rect.mem_set_unit]
  exact Iff.rfl

/-- Every index of the output lies in the tile of the point that handles its row: row r is in tile r / 2048. -/
theorem covered (i : S65536x512.Idx) :
    ∃ t : Fin cfg0.N, (cfg0.win 2).flush t = true ∧ i ∈ ((cfg0.win 2).blk t).view.set := by
  have hi0 : (i 0).val < 65536 := (i 0).isLt
  have hi1 : (i 1).val < 512 := (i 1).isLt
  obtain ⟨t, ht⟩ := tile_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The output array after the run is the flat product. -/
theorem final (c : Dev nD) :
    (dats m 0 c).arrAt 2 cfg0.N = product (rows m c) (cols m c) :=
  (dats m 0 c).arrAt_eq_of_cover 2 (product (rows m c) (cols m c)) (fun t _ => flushed_eq m c t) covered

end Cert.Ternary.Flat

end
-- ==== Proof.KernelValue.lean ====
/-
  The kernel program's result as a value. The flat product of the flattened x with the transposed
  thresholded weight, unflattened, is the linear map of the specification:
      out[b, s, n] = out2d[b·4096 + s, n] = Σ_k X[b·4096 + s, k] · WT[k, n] = Σ_k x[b, s, k] · q(w)[n, k].
-/
import proofs.«119432_j42425686950159_1_alg».proof.Proof.HostSide
import proofs.«119432_j42425686950159_1_alg».proof.Proof.FlatProduct

set_option maxRecDepth 16384

noncomputable section

namespace Cert.Ternary.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The two argument arrays as launched, at their literal types. -/
abbrev xarg (c : Dev nD) : FVec Ideal S16x4096x512 .f32 := m ((c : Thread nD τ).loc main_arg0)
abbrev warg (c : Dev nD) : FVec Ideal S512x512 .f32 := m ((c : Thread nD τ).loc main_arg1)

/-- The transposed weight: WT[k, n] = q(w)[n, k]. -/
theorem cols_apply (c : Dev nD) (k n : Fin 512) :
    Flat.cols m c (ix2 k n) = tern bcast_S_S512x512 (warg m c) (ix2 n k) := by
  refine (congrFun (Host.weightT_eq m c) (ix2 k n)).trans ?_
  show transpose S512x512 [1, 0] (id (tern bcast_S_S512x512 (warg m c))) transposes_S512x512_S512x512_1_0 (ix2 k n) = _
  exact transpose_apply [1, 0] _ transposes_S512x512_S512x512_1_0 (ix2 k n) (ix2 n k)
    (fun b => by match b with | ⟨0, _⟩ => rfl | ⟨1, _⟩ => rfl)

/-- The flattened x: row b·4096 + s is row (b, s) of x. -/
theorem rows_apply (c : Dev nD) (b : Fin 16) (s : Fin 4096) (k : Fin 512) (r : Fin 65536)
    (hr : r.val = b.val * 4096 + s.val) :
    Flat.rows m c (ix2 r k) = xarg m c (ix3 b s k) := by
  refine (congrFun (Host.rows_eq m c) (ix2 r k)).trans ?_
  refine shapeCast_apply _ shapeCasts_S16x4096x512_S65536x512 (ix2 r k) (ix3 b s k) ?_
  rw [Shape.rowMajor_val_three, Shape.rowMajor_val_two]
  show (b.val * 4096 + s.val) * 512 + k.val = r.val * 512 + k.val
  rw [hr]

/-- The program's result buffer after the host line that follows the region: the output array unflattened. -/
theorem result_eq (c : Dev nD) :
    (Pipeline.afterTail₀ cfgs (dats m) 0 (V0 m) [hostOps1] c main_v11 : S16x4096x512.Idx → EReal)
      = shapeCast S16x4096x512 (Flat.product (Flat.rows m c) (Flat.cols m c)) shapeCasts_S65536x512_S16x4096x512 := by
  unfold Pipeline.afterTail₀
  show StableHlo.after hostOps1 _ (Proc.devRef .tc main_v11) = _
  after_results
  rw [(Pipeline.withArrays_arr spec0 launch0.win.arr_inj c _ _ 2).trans (Flat.final m c)]
  rfl

/-- The result is the linear map of x and the thresholded weight. -/
theorem result_linear (c : Dev nD) :
    (Pipeline.afterTail₀ cfgs (dats m) 0 (V0 m) [hostOps1] c main_v11 : S16x4096x512.Idx → EReal)
      = linear (xarg m c) (tern bcast_S_S512x512 (warg m c)) := by
  rw [result_eq]
  funext i
  have h0 : (i 0).val < 16 := (i 0).isLt
  have h1 : (i 1).val < 4096 := (i 1).isLt
  have hr : (i 0).val * 4096 + (i 1).val < 65536 := by omega
  refine (shapeCast_apply _ shapeCasts_S65536x512_S16x4096x512 i (ix2 ⟨(i 0).val * 4096 + (i 1).val, hr⟩ (i 2)) ?_).trans ?_
  · rw [Shape.rowMajor_val_three, Shape.rowMajor_val_two]
    rfl
  · unfold Flat.product linear
    refine Finset.sum_congr rfl fun k _ => ?_
    rw [rows_apply m c (i 0) (i 1) k ⟨(i 0).val * 4096 + (i 1).val, hr⟩ rfl, cols_apply m c k (i 2)]

/-- Every weakly fair run of the kernel program ends with the result at the linear map and the arguments as
    launched. -/
theorem run : θ_run defs (onTc (τ := τ) (main (F := Ideal))) ⟨m, fun _ => 0, ρ⟩ fun r => ∀ c : Dev nD,
      r.2.mem ((c.tc : Thread nD τ).loc main_v11) = linear (xarg m c) (tern bcast_S_S512x512 (warg m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v11 (Pipeline.mem_restRefs_of main_v11 (by decide) (by decide))).trans (result_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Ternary.Kernel

end
-- ==== Proof.FiniteWeight.lean ====
/-
  The precondition says |x| < +∞ and |w| < +∞ entrywise. Over the extended reals |a| = max a (-a) is +∞
  at both infinities, so every entry of the weight is a real number.
-/
import proofs.«119432_j42425686950159_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Ternary.Finite

open Idealize.ShloMosaic
open Cert.Pre_finite_inputs Cert.Pre_finite_inputs.Gen

instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ a : ℝ, x = (a : EReal) := by
  rw [inf_word] at h
  induction x using EReal.rec with
  | bot => simp [Ideal.cmp] at h
  | top => simp [Ideal.cmp] at h
  | coe r => exact ⟨r, rfl⟩

/-- Under the precondition every entry of the weight is real. -/
theorem weight_real (x0 : FVec Ideal S16x4096x512 .f32) (x1 : FVec Ideal S512x512 .f32)
    (h : fn (F := Ideal) x0 x1 = fun _ => 1#1) (j : S512x512.Idx) : ∃ a : ℝ, x1 j = (a : EReal) := by
  have h0 := congrFun h ValueIdx.ix0
  dsimp only [fn] at h0
  obtain ⟨-, h2⟩ := IntOp.andi_eq_one.mp h0
  have h3 := Host.reduce_andi_all _ _ _ _ _ h2 j
  exact real_of_abs_lt (x1 j) h3

end Cert.Ternary.Finite

end
-- ==== Proof.lean ====
/-
  The kernel thresholds the weight w to q(w) ∈ {1, -1, 0}, transposes it, flattens x to [65536, 512] and
  multiplies tile by tile; the reference contracts x with w + (q(w) - w). Over the extended reals both
  compute
      out[b, s, o] = Σ_k x[b, s, k] · q(w)[o, k]
  when every entry of w is real, which the precondition gives: a + (y - a) = y for real a and any extended
  real y. The order of the sum over k is the same on both sides and x may be anything, so nothing else of
  the precondition is used.

  The three frames are the generated ones (the reference's is its generated run with the result dropped);
  no ideal-pass rewrite was applied, so the idealization conjunct is trivial.
-/
import proofs.«119432_j42425686950159_1_alg».proof.Defs
import proofs.«119432_j42425686950159_1_alg».proof.Proof.Gen.Kernel
import proofs.«119432_j42425686950159_1_alg».proof.Proof.Gen.Kernel.Skeleton
import proofs.«119432_j42425686950159_1_alg».proof.Proof.Gen.Kernel.Launch
import proofs.«119432_j42425686950159_1_alg».proof.Proof.Gen.Kernel.Points
import proofs.«119432_j42425686950159_1_alg».proof.Proof.Gen.Kernel.Frame
import proofs.«119432_j42425686950159_1_alg».proof.Proof.Gen.KernelIdeal
import proofs.«119432_j42425686950159_1_alg».proof.Proof.Gen.KernelIdeal.Skeleton
import proofs.«119432_j42425686950159_1_alg».proof.Proof.Gen.KernelIdeal.Launch
import proofs.«119432_j42425686950159_1_alg».proof.Proof.Gen.KernelIdeal.Points
import proofs.«119432_j42425686950159_1_alg».proof.Proof.Gen.KernelIdeal.Frame
import proofs.«119432_j42425686950159_1_alg».proof.Proof.Gen.ReferenceIdeal
import proofs.«119432_j42425686950159_1_alg».proof.Proof.Gen.Pre_finite_inputs
import proofs.«119432_j42425686950159_1_alg».proof.Proof.Gen.ReferenceIdeal.Run
import proofs.«119432_j42425686950159_1_alg».proof.Proof.Gen.ReferenceIdeal.Read
import proofs.«119432_j42425686950159_1_alg».proof.Proof.RefTerm
import proofs.«119432_j42425686950159_1_alg».proof.Proof.KernelValue
import proofs.«119432_j42425686950159_1_alg».proof.Proof.FiniteWeight
import Idealize.ShloMosaic.Adequacy
import Idealize.ShloMosaic.Init

noncomputable section

namespace Cert.Proof

open Idealize.ShloMosaic Idealize.SL.Sem Cert.Ternary

/-- Both idealized programs end at the linear map of x and the thresholded weight: the kernel by its tiles, the
    reference by its contraction once w + (q(w) - w) is read as q(w) at the real entries of w. -/
theorem algebraic : Cert.algebraic_KernelIdeal_ReferenceIdeal := by
  intro m ρ m' ρ' hpre hagree
  refine ⟨fun c => linear (Kernel.xarg m c) (tern Cert.KernelIdeal.Gen.bcast_S_S512x512 (Kernel.warg m c)), Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v9_eq _ _).trans ?_
  exact Ref.reference_eq _ _ (Finite.weight_real _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
